-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x64x64 : Shape := ⟨4, ![8, 512, 64, 64]⟩
abbrev S64x64 : Shape := ⟨2, ![64, 64]⟩
abbrev S64 : Shape := ⟨1, ![64]⟩
abbrev S_ : Shape := ⟨0, ![]⟩

class Facts : Prop where
  bcast_S_S8x512x64x64 : S_.BroadcastsInDim S8x512x64x64 (![] : Fin 0 → Fin S8x512x64x64.rank)
  reducesTo_S8x512x64x64_S_d0_1_2_3 : S8x512x64x64.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S8x512x64x64 .f32) (main_arg1 : FVec F S8x512x64x64 .f32) (main_arg2 : FVec F S8x512x64x64 .f32) (main_arg3 : FVec F S64x64 .f32) (main_arg4 : FVec F S64 .f32) : IVec S_ 1 :=
  let main_v0 : FVec F S8x512x64x64 .f32 := Host.absf main_arg0
  let main_cst : FVec F S_ .f32 := constant S_ .f32 0x7F800000#32
  let main_v1 : FVec F S8x512x64x64 .f32 := broadcastInDim S8x512x64x64 ![] bcast_S_S8x512x64x64 main_cst
  let main_v2 : IVec S8x512x64x64 1 := cmpf .olt main_v0 main_v1
  let main_c : IVec S_ 1 := constantI S_ 1 1#1
  let main_v3 : IVec S_ 1 := (fun x v => Host.reduce IntOp.andi x v reducesTo_S8x512x64x64_S_d0_1_2_3 h_S_) main_v2 main_c
  let main_v4 : FVec F S8x512x64x64 .f32 := Host.absf main_arg1
  let main_cst_0 : FVec F S_ .f32 := constant S_ .f32 0x7F800000#32
  let main_v5 : FVec F S8x512x64x64 .f32 := broadcastInDim S8x512x64x64 ![] bcast_S_S8x512x64x64 main_cst_0
  let main_v6 : IVec S8x512x64x64 1 := cmpf .olt main_v4 main_v5
  let main_c_1 : IVec S_ 1 := constantI S_ 1 1#1
  let main_v7 : IVec S_ 1 := (fun x v => Host.reduce IntOp.andi x v reducesTo_S8x512x64x64_S_d0_1_2_3 h_S_) main_v6 main_c_1
  let main_v8 : IVec S_ 1 := andi main_v3 main_v7
  let main_v9 : FVec F S8x512x64x64 .f32 := Host.absf main_arg2
  let main_cst_2 : FVec F S_ .f32 := constant S_ .f32 0x7F800000#32
  let main_v10 : FVec F S8x512x64x64 .f32 := broadcastInDim S8x512x64x64 ![] bcast_S_S8x512x64x64 main_cst_2
  let main_v11 : IVec S8x512x64x64 1 := cmpf .olt main_v9 main_v10
  let main_c_3 : IVec S_ 1 := constantI S_ 1 1#1
  let main_v12 : IVec S_ 1 := (fun x v => Host.reduce IntOp.andi x v reducesTo_S8x512x64x64_S_d0_1_2_3 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S8x512x64x64 : Shape := ⟨4, ![8, 512, 64, 64]⟩
abbrev S64x64 : Shape := ⟨2, ![64, 64]⟩
abbrev S64 : Shape := ⟨1, ![64]⟩
abbrev S1x64x64x64 : Shape := ⟨4, ![1, 64, 64, 64]⟩
abbrev S64x64x64 : Shape := ⟨3, ![64, 64, 64]⟩
abbrev S64x4096 : Shape := ⟨2, ![64, 4096]⟩
abbrev S64x1 : Shape := ⟨2, ![64, 1]⟩

abbrev nBuf : Space → Nat
  | .hbm => 6
  | .vmem => 10
  | .smem => 0
  | _ => 0

abbrev bufTy : (tb : Table) → Fin (tcTables nBuf tb) → BufTy
  | .hbm, ⟨0, _⟩ => ⟨S8x512x64x64, .f32⟩
  | .hbm, ⟨1, _⟩ => ⟨S8x512x64x64, .f32⟩
  | .hbm, ⟨2, _⟩ => ⟨S8x512x64x64, .f32⟩
  | .hbm, ⟨3, _⟩ => ⟨S64x64, .f32⟩
  | .hbm, ⟨4, _⟩ => ⟨S64, .f32⟩
  | .hbm, ⟨5, _⟩ => ⟨S8x512x64x64, .f32⟩
  | .local _ .vmem, ⟨0, _⟩ => ⟨S1x64x64x64, .f32⟩
  | .local _ .vmem, ⟨1, _⟩ => ⟨S1x64x64x64, .f32⟩
  | .local _ .vmem, ⟨2, _⟩ => ⟨S1x64x64x64, .f32⟩
  | .local _ .vmem, ⟨3, _⟩ => ⟨S1x64x64x64, .f32⟩
  | .local _ .vmem, ⟨4, _⟩ => ⟨S1x64x64x64, .f32⟩
  | .local _ .vmem, ⟨5, _⟩ => ⟨S1x64x64x64, .f32⟩
  | .local _ .vmem, ⟨6, _⟩ => ⟨S64x64, .f32⟩
  | .local _ .vmem, ⟨7, _⟩ => ⟨S64, .f32⟩
  | .local _ .vmem, ⟨8, _⟩ => ⟨S1x64x64x64, .f32⟩
  | .local _ .vmem, ⟨9, _⟩ => ⟨S1x64x64x64, .f32⟩
  | _, _ => ⟨S8x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x64x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x64x64x64_S1x64x64x64_0_0_0_0 : ∀ a, (![0, 0, 0, 0] : Fin 4 → Nat) a + S1x64x64x64.size a ≤ S1x64x64x64.size a
  h_S1x64x64x64 : 0 < S1x64x64x64.numel
  shapeCasts_S1x64x64x64_S64x64x64 : S1x64x64x64.ShapeCasts S64x64x64
  shapeCasts_S64x64x64_S64x4096 : S64x64x64.ShapeCasts S64x4096
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  bitsLt_bf16_f32 : FTy.bits .bf16 < FTy.bits .f32
  shapeCasts_S64_S64x1 : S64.ShapeCasts S64x1
  broadcasts_S64x1_S64x4096 : S64x1.Broadcasts S64x4096
  shapeCasts_S64x4096_S64x64x64 : S64x4096.ShapeCasts S64x64x64
  shapeCasts_S64x64x64_S1x64x64x64 : S64x64x64.ShapeCasts S1x64x64x64
  dot_S64x64_S64x4096_S64x4096_1_0_0_1_n_n_wf : DotDims.WF S64x64 S64x4096 S64x4096 [1] [0] [0] [1] [] []
  dot_S64x4096_S64x4096_S64x64_1_1_0_0_n_n_wf : DotDims.WF S64x4096 S64x4096 S64x64 [1] [1] [0] [0] [] []
  dot_S64x64_S64x4096_S64x4096_0_0_1_1_n_n_wf : DotDims.WF S64x64 S64x4096 S64x4096 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x64.size a ≤ S8x512x64x64.size a
  hwx0_0 : ∀ i : grid0.Coords, EltTy.bits .f32 = 32 ∨ (Rect.block (s := S8x512x64x64) S1x64x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64x64.size a ≤ S8x512x64x64.size a
  hwx0_1 : ∀ i : grid0.Coords, EltTy.bits .f32 = 32 ∨ (Rect.block (s := S8x512x64x64) S1x64x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64x64.size a ≤ S8x512x64x64.size a
  hwx0_2 : ∀ i : grid0.Coords, EltTy.bits .f32 = 32 ∨ (Rect.block (s := S8x512x64x64) S1x64x64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x64x64.size a ≤ S8x512x64x64.size a
  hwx0_5 : ∀ i : grid0.Coords, EltTy.bits .f32 = 32 ∨ (Rect.block (s := S8x512x64x64) S1x64x64x64.size (cc0_transform_5 i) (hinb0_5 i)).WholeWords (EltTy.packing .f32)

variable [Facts₀]

def dot_S64x64_S64x4096_S64x4096_1_0_0_1_n_n : DotDims S64x64 S64x4096 S64x4096 where
  lhsContracting := [1]
  rhsContracting := [0]
  lhsNonContracting := [0]
  rhsNonContracting := [1]
  lhsBatch := []
  rhsBatch := []
  wf := dot_S64x64_S64x4096_S64x4096_1_0_0_1_n_n_wf
def dot_S64x4096_S64x4096_S64x64_1_1_0_0_n_n : DotDims S64x4096 S64x4096 S64x64 where
  lhsContracting := [1]
  rhsContracting := [1]
  lhsNonContracting := [0]
  rhsNonContracting := [0]
  lhsBatch := []
  rhsBatch := []
  wf := dot_S64x4096_S64x4096_S64x64_1_1_0_0_n_n_wf
def dot_S64x64_S64x4096_S64x4096_0_0_1_1_n_n : DotDims S64x64 S64x4096 S64x4096 where
  lhsContracting := [0]
  rhsContracting := [0]
  lhsNonContracting := [1]
  rhsNonContracting := [1]
  lhsBatch := []
  rhsBatch := []
  wf := dot_S64x64_S64x4096_S64x4096_0_0_1_1_n_n_wf

abbrev win0_0 : Pipeline.Window sig grid0 :=
  Pipeline.Window.ofSpec (Memref.whole main_arg0) S1x64x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64x64x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x64x64x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x512x64x64 : Shape := ⟨4, ![8, 512, 64, 64]⟩
abbrev S64x64 : Shape := ⟨2, ![64, 64]⟩
abbrev S64 : Shape := ⟨1, ![64]⟩
abbrev S8x8x64x4096 : Shape := ⟨4, ![8, 8, 64, 4096]⟩
abbrev S8x8x4096x64 : Shape := ⟨4, ![8, 8, 4096, 64]⟩
abbrev S1x1x1x64 : Shape := ⟨4, ![1, 1, 1, 64]⟩
abbrev S_ : Shape := ⟨0, ![]⟩
abbrev S8x8x64x64 : Shape := ⟨4, ![8, 8, 64, 64]⟩

abbrev nBuf : Space → Nat
  | .hbm => 29
  | .vmem => 0
  | .smem => 0
  | _ => 0

abbrev bufTy : (tb : Table) → Fin (tcTables nBuf tb) → BufTy
  | .hbm, ⟨0, _⟩ => ⟨S8x512x64x64, .f32⟩
  | .hbm, ⟨1, _⟩ => ⟨S8x512x64x64, .f32⟩
  | .hbm, ⟨2, _⟩ => ⟨S8x512x64x64, .f32⟩
  | .hbm, ⟨3, _⟩ => ⟨S64x64, .f32⟩
  | .hbm, ⟨4, _⟩ => ⟨S64, .f32⟩
  | .hbm, ⟨5, _⟩ => ⟨S8x8x64x4096, .f32⟩
  | .hbm, ⟨6, _⟩ => ⟨S8x8x4096x64, .f32⟩
  | .hbm, ⟨7, _⟩ => ⟨S8x8x64x4096, .f32⟩
  | .hbm, ⟨8, _⟩ => ⟨S8x8x4096x64, .f32⟩
  | .hbm, ⟨9, _⟩ => ⟨S8x8x64x4096, .f32⟩
  | .hbm, ⟨10, _⟩ => ⟨S8x8x4096x64, .f32⟩
  | .hbm, ⟨11, _⟩ => ⟨S8x8x4096x64, .f32⟩
  | .hbm, ⟨12, _⟩ => ⟨S1x1x1x64, .f32⟩
  | .hbm, ⟨13, _⟩ => ⟨S8x8x4096x64, .f32⟩
  | .hbm, ⟨14, _⟩ => ⟨S8x8x4096x64, .f32⟩
  | .hbm, ⟨15, _⟩ => ⟨S_, .f32⟩
  | .hbm, ⟨16, _⟩ => ⟨S8x8x4096x64, .f32⟩
  | .hbm, ⟨17, _⟩ => ⟨S8x8x4096x64, .f32⟩
  | .hbm, ⟨18, _⟩ => ⟨S8x8x4096x64, .f32⟩
  | .hbm, ⟨19, _⟩ => ⟨S1x1x1x64, .f32⟩
  | .hbm, ⟨20, _⟩ => ⟨S8x8x4096x64, .f32⟩
  | .hbm, ⟨21, _⟩ => ⟨S8x8x4096x64, .f32⟩
  | .hbm, ⟨22, _⟩ => ⟨S_, .f32⟩
  | .hbm, ⟨23, _⟩ => ⟨S8x8x4096x64, .f32⟩
  | .hbm, ⟨24, _⟩ => ⟨S8x8x4096x64, .f32⟩
  | .hbm, ⟨25, _⟩ => ⟨S8x8x64x64, .f32⟩
  | .hbm, ⟨26, _⟩ => ⟨S8x8x4096x64, .f32⟩
  | .hbm, ⟨27, _⟩ => ⟨S8x8x64x4096, .f32⟩
  | .hbm, ⟨28, _⟩ => ⟨S8x512x64x64, .f32⟩
  | _, _ => ⟨S8x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_cst : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call1_cst : Ref sig .tc := ⟨.hbm, 22, rfl⟩
abbrev main_call1_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  shapeCasts_S8x512x64x64_S8x8x64x4096 : S8x512x64x64.ShapeCasts S8x8x64x4096
  transposes_S8x8x64x4096_S8x8x4096x64_0_1_3_2 : S8x8x64x4096.Transposes [0, 1, 3, 2] S8x8x4096x64
  bcast_S64_S1x1x1x64_3 : S64.BroadcastsInDim S1x1x1x64 (![3] : Fin 1 → Fin S1x1x1x64.rank)
  bcast_S1x1x1x64_S8x8x4096x64_0_1_2_3 : S1x1x1x64.BroadcastsInDim S8x8x4096x64 (![0, 1, 2, 3] : Fin 4 → Fin S8x8x4096x64.rank)
  bcast_S_S8x8x4096x64 : S_.BroadcastsInDim S8x8x4096x64 (![] : Fin 0 → Fin S8x8x4096x64.rank)
  transposes_S8x8x4096x64_S8x8x64x4096_0_1_3_2 : S8x8x4096x64.Transposes [0, 1, 3, 2] S8x8x64x4096
  shapeCasts_S8x8x64x4096_S8x512x64x64 : S8x8x64x4096.ShapeCasts S8x512x64x64
  dot_S8x8x4096x64_S64x64_S8x8x4096x64_3_1_012_0_n_n_wf : DotDims.WF S8x8x4096x64 S64x64 S8x8x4096x64 [3] [1] [0, 1, 2] [0] [] []
  dot_S8x8x4096x64_S8x8x4096x64_S8x8x64x64_2_2_3_3_01_01_wf : DotDims.WF S8x8x4096x64 S8x8x4096x64 S8x8x64x64 [2] [2] [3] [3] [0, 1] [0, 1]
  dot_S8x8x4096x64_S8x8x64x64_S8x8x4096x64_3_2_2_3_01_01_wf : DotDims.WF S8x8x4096x64 S8x8x64x64 S8x8x4096x64 [3] [2] [2] [3] [0, 1] [0, 1]

variable [Facts₀]

def dot_S8x8x4096x64_S64x64_S8x8x4096x64_3_1_012_0_n_n : DotDims S8x8x4096x64 S64x64 S8x8x4096x64 where
  lhsContracting := [3]
  rhsContracting := [1]
  lhsNonContracting := [0, 1, 2]
  rhsNonContracting := [0]
  lhsBatch := []
  rhsBatch := []
  wf := dot_S8x8x4096x64_S64x64_S8x8x4096x64_3_1_012_0_n_n_wf
def dot_S8x8x4096x64_S8x8x4096x64_S8x8x64x64_2_2_3_3_01_01 : DotDims S8x8x4096x64 S8x8x4096x64 S8x8x64x64 where
  lhsContracting := [2]
  rhsContracting := [2]
  lhsNonContracting := [3]
  rhsNonContracting := [3]
  lhsBatch := [0, 1]
  rhsBatch := [0, 1]
  wf := dot_S8x8x4096x64_S8x8x4096x64_S8x8x64x64_2_2_3_3_01_01_wf
def dot_S8x8x4096x64_S8x8x64x64_S8x8x4096x64_3_2_2_3_01_01 : DotDims S8x8x4096x64 S8x8x64x64 S8x8x4096x64 where
  lhsContracting := [3]
  rhsContracting := [2]
  lhsNonContracting := [2]
  rhsNonContracting := [3]
  lhsBatch := [0, 1]
  rhsBatch := [0, 1]
  wf := dot_S8x8x4096x64_S8x8x64x64_S8x8x4096x64_3_2_2_3_01_01_wf

class Facts : Prop extends Facts₀ where

variable [Facts]
-- ==== Proof.Spec.lean ====
/-
  Linear attention with a learned feature map, per batch entry and per head, as one function of the five argument
  arrays, index by index, over the extended reals.

  The three activations are `[8, 512, 64, 64]` arrays: batch `b`, channel `h·64 + d` (head `h`, head channel `d`), and a
  64 × 64 image whose pixels are numbered `n = y·64 + x`. For one `(b, h)` write `X[d, n]` for the head's slice of an
  activation. With the weight `W[e, d]` and the bias `β[e]`:

    φ(X)[e, n]  = max (∑ d, W[e, d] · X[d, n] + β[e]) 0            (the feature map, a linear layer and a ReLU)
    KV[c, e]    = ∑ n, φ(K)[c, n] · V[e, n]                          (keys against values, summed over the pixels)
    out[e, n]   = ∑ c, KV[c, e] · φ(Q)[c, n]                         (queries against that 64 × 64 matrix)

  and the result array holds `out[e, y·64 + x]` at `(b, h·64 + e, y, x)`.
  Only sums and products of extended reals and a maximum occur, in one fixed arrangement, so nothing here needs the
  inputs to be finite.
-/
import Idealize.ShloMosaic.PureOps.Ideal
import Idealize.ShloMosaic.Lib.ValueIdx

noncomputable section

namespace Cert.LinAttn

open Idealize.ShloMosaic Idealize.ShloMosaic.ValueIdx
open scoped BigOperators

/-- An activation array. -/
abbrev Act := (⟨4, ![8, 512, 64, 64]⟩ : Shape).Idx → EReal
/-- The feature map's weight. -/
abbrev Wt := (⟨2, ![64, 64]⟩ : Shape).Idx → EReal
/-- The feature map's bias. -/
abbrev Bias := (⟨1, ![64]⟩ : Shape).Idx → EReal
/-- One head's slice of an activation: head channel by pixel number. -/
abbrev Head := Fin 64 → Fin 4096 → EReal

/-- Channel `h·64 + d` of the 512. -/
def chan (h : Fin 8) (d : Fin 64) : Fin 512 := ⟨h.val * 64 + d.val, by have := h.isLt; have := d.isLt; omega⟩
/-- The head of a channel. -/
def headOf (c : Fin 512) : Fin 8 := ⟨c.val / 64, by have := c.isLt; omega⟩
/-- The head channel of a channel. -/
def chOf (c : Fin 512) : Fin 64 := ⟨c.val % 64, Nat.mod_lt _ (by decide)⟩
/-- Pixel number `y·64 + x`. -/
def pix (y x : Fin 64) : Fin 4096 := ⟨y.val * 64 + x.val, by have := y.isLt; have := x.isLt; omega⟩
/-- A pixel's row. -/
def rowOf (n : Fin 4096) : Fin 64 := ⟨n.val / 64, by have := n.isLt; omega⟩
/-- A pixel's column. -/
def colOf (n : Fin 4096) : Fin 64 := ⟨n.val % 64, Nat.mod_lt _ (by decide)⟩

/-- The slice of an activation that batch entry `b` and head `h` own. -/
def slice (a : Act) (b h : Fin 8) : Head := fun d n => a (ix4 b (chan h d) (rowOf n) (colOf n))

/-- The feature map: a linear layer over the head channels, then a ReLU. -/
def feat (W : Wt) (β : Bias) (X : Head) : Head := fun e n =>
  max ((∑ d : Fin 64, W (ix2 e d) * X d n) + β (ix1 e)) (Ideal.ofBits .f32 0x00000000#32)

/-- Mapped keys against values, summed over the pixels. -/
def keyVal (KF V : Head) (c e : Fin 64) : EReal := ∑ n : Fin 4096, KF c n * V e n

/-- One head's attention output, head channel by pixel. -/
def attn (W : Wt) (β : Bias) (Q K V : Head) : Head := fun e n =>
  ∑ c : Fin 64, keyVal (feat W β K) V c e * feat W β Q c n

/-- The result array. -/
def G (q k v : Act) (W : Wt) (β : Bias) : Act := fun i =>
  attn W β (slice q (i 0) (headOf (i 1))) (slice k (i 0) (headOf (i 1))) (slice v (i 0) (headOf (i 1)))
    (chOf (i 1)) (pix (i 2) (i 3))

theorem chan_headOf_chOf (c : Fin 512) : chan (headOf c) (chOf c) = c :=
  Fin.ext (by show c.val / 64 * 64 + c.val % 64 = c.val; omega)

theorem headOf_chan (h : Fin 8) (d : Fin 64) : headOf (chan h d) = h :=
  Fin.ext (by show (h.val * 64 + d.val) / 64 = h.val; have := d.isLt; omega)

theorem chOf_chan (h : Fin 8) (d : Fin 64) : chOf (chan h d) = d :=
  Fin.ext (by show (h.val * 64 + d.val) % 64 = d.val; have := d.isLt; omega)

theorem rowOf_pix (y x : Fin 64) : rowOf (pix y x) = y :=
  Fin.ext (by show (y.val * 64 + x.val) / 64 = y.val; have := x.isLt; omega)

theorem colOf_pix (y x : Fin 64) : colOf (pix y x) = x :=
  Fin.ext (by show (y.val * 64 + x.val) % 64 = x.val; have := x.isLt; omega)

theorem pix_rowOf_colOf (n : Fin 4096) : pix (rowOf n) (colOf n) = n :=
  Fin.ext (by show n.val / 64 * 64 + n.val % 64 = n.val; omega)

end Cert.LinAttn

end
-- ==== Proof.LibDotFormats.lean ====
/-
  Matrix products with ONE contracted axis, read at an index, for operands of any float formats.

  Two arrangements of the dimension numbers of a rank-2 product without batch axes:
  * rows by columns: an `A × K` left operand against a `K × B` right operand, the left operand's second axis
    contracted against the right operand's first; entry `(p, q)` is `∑ k, f (p, k) · g (k, q)`;
  * rows by rows: an `A × K` left operand against a `B × K` right operand, the second axis of both contracted
    (the right operand enters transposed); entry `(p, q)` is `∑ k, f (p, k) · g (q, k)`.
  In both the contraction index has the one coordinate `k : Fin K`. Any record with those dimension numbers is
  the library's `DotDims.plain`, respectively `DotDims.transposedRhs`, for which the operand indices compute.
  The operands' element formats are arbitrary (at the ideal values every format is the extended reals), so the
  statements serve a product of half-precision operands accumulated in single precision as well.
-/
import Idealize.ShloMosaic.PureOps.Ideal
import Idealize.ShloMosaic.PureOps.Ideal.Laws
import Idealize.ShloMosaic.Lib.ValueIdx

noncomputable section

namespace Cert.LibDotFormats

open Idealize.ShloMosaic Idealize.ShloMosaic.ValueIdx
open scoped BigOperators

variable {A K B : Nat}

/-! ## Rows by columns: `[A, K] × [K, B]`, dimension numbers `[1] × [0]` -/

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl
theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A product into the zero accumulator, at `(p, q)`: `∑ k, lhs (p, k) · rhs (k, q)`. -/
theorem matmul_cols_zero_apply {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-! ## Rows by rows: `[A, K] × [B, K]`, dimension numbers `[1] × [1]` -/

/-- Dimension numbers `[1] × [1]`, free axes `[0]` and `[0]`, no batch: the record is `DotDims.transposedRhs`. -/
theorem eq_transposedRhs (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) : d = DotDims.transposedRhs A K B := by
  cases d
  simp only at hlc hrc hln hrn hlb hrb
  subst hlc hrc hln hrn hlb hrb
  rfl

theorem rows_rank : (DotDims.transposedRhs A K B).contr.rank = 1 := rfl
theorem rows_size : (DotDims.transposedRhs A K B).contr.size ⟨0, by rw [rows_rank]; exact Nat.one_pos⟩ = K := rfl

theorem rows_lhs (p : Fin A) (q : Fin B) (k : Fin K) :
    (DotDims.transposedRhs A K B).lhsIdx (ix2 p q) ((contrEquiv1 (DotDims.transposedRhs A K B) K rows_rank rows_size).symm k) = ix2 p k := by
  funext a
  apply Fin.ext
  match a with
  | ⟨0, _⟩ => rfl
  | ⟨1, _⟩ => rfl

theorem rows_rhs (p : Fin A) (q : Fin B) (k : Fin K) :
    (DotDims.transposedRhs A K B).rhsIdx (ix2 p q) ((contrEquiv1 (DotDims.transposedRhs A K B) K rows_rank rows_size).symm k) = ix2 q k := by
  funext a
  apply Fin.ext
  match a with
  | ⟨0, _⟩ => rfl
  | ⟨1, _⟩ => rfl

/-- The sum over the contraction index is the sum over `k : Fin K` of `f (p, k) · g (q, k)`. -/
theorem rows_sum (f : (⟨2, ![A, K]⟩ : Shape).Idx → EReal) (g : (⟨2, ![B, K]⟩ : Shape).Idx → EReal) (p : Fin A) (q : Fin B) :
    ∑ k : (DotDims.transposedRhs A K B).contr.Idx,
        f ((DotDims.transposedRhs A K B).lhsIdx (ix2 p q) k) * g ((DotDims.transposedRhs A K B).rhsIdx (ix2 p q) k)
      = ∑ k : Fin K, f (ix2 p k) * g (ix2 q k) := by
  rw [← Equiv.sum_comp (contrEquiv1 (DotDims.transposedRhs A K B) K rows_rank rows_size).symm]
  refine Finset.sum_congr rfl fun k _ => ?_
  rw [rows_lhs, rows_rhs]

/-- A product into the zero accumulator with the right operand contracted on its last axis, at `(p, q)`:
    `∑ k, lhs (p, k) · rhs (q, k)`. -/
theorem matmul_rows_zero_apply {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q) = ∑ k : Fin K, lhs (ix2 p k) * rhs (ix2 q k) := by
  rw [eq_transposedRhs d hlc hrc hln hrn hlb hrb, Ideal.matmul_constant_zero_apply]
  exact rows_sum lhs rhs p q

end Cert.LibDotFormats

end
-- ==== Proof.LibDotCols.lean ====
/-
  A matrix product that contracts the ROW axis of both operands, read at an index.

  For a `K × A` left operand and a `K × B` right operand whose dimension numbers contract the first axis of each
  (no batch axes), the contraction index has one coordinate `k : Fin K`, the left operand is read at `(k, p)` and
  the right one at `(k, q)`. So the product at `(p, q)` is `∑ k, f (k, p) · g (k, q)`: column `p` of the left
  operand paired with column `q` of the right one, whatever the sizes. `eq_cols` identifies any record with these
  dimension numbers with the one written out here, `cols`, for which the two operand indices compute.
-/
import Idealize.ShloMosaic.PureOps.Ideal
import Idealize.ShloMosaic.PureOps.Ideal.Laws
import Idealize.ShloMosaic.Lib.ValueIdx

noncomputable section

namespace Cert.LibDotCols

open Idealize.ShloMosaic Idealize.ShloMosaic.ValueIdx
open scoped BigOperators

variable {K A B : Nat}

/-- Dimension numbers `[0] × [0]`, free axes `[1]` and `[1]`, no batch: `K×A` by `K×B` gives `A×B`. -/
def cols (K A B : Nat) : DotDims ⟨2, ![K, A]⟩ ⟨2, ![K, B]⟩ ⟨2, ![A, B]⟩ where
  lhsContracting := [0]
  rhsContracting := [0]
  lhsNonContracting := [1]
  rhsNonContracting := [1]
  lhsBatch := []
  rhsBatch := []
  wf := ⟨rfl, by simp, rfl, by simp, by simp, by simp,
    by simpa [List.finRange] using List.Perm.swap (0 : Fin 2) 1 [],
    by simpa [List.finRange] using List.Perm.swap (0 : Fin 2) 1 [],
    rfl, Nat.two_pos, fun b => by
      match b with
      | ⟨0, _⟩ => rfl
      | ⟨1, _⟩ => rfl⟩

/-- Any record with these six lists is `cols`. -/
theorem eq_cols (d : DotDims ⟨2, ![K, A]⟩ ⟨2, ![K, B]⟩ ⟨2, ![A, B]⟩)
    (hlc : d.lhsContracting = [0]) (hrc : d.rhsContracting = [0]) (hln : d.lhsNonContracting = [1])
    (hrn : d.rhsNonContracting = [1]) (hlb : d.lhsBatch = []) (hrb : d.rhsBatch = []) : d = cols K A B := by
  cases d
  simp only at hlc hrc hln hrn hlb hrb
  subst hlc hrc hln hrn hlb hrb
  rfl

/-- The contraction shape has one axis … -/
theorem cols_rank : (cols K A B).contr.rank = 1 := rfl
/-- … of extent `K`. -/
theorem cols_size : (cols K A B).contr.size ⟨0, by rw [cols_rank]; exact Nat.one_pos⟩ = K := rfl

/-- At result index `(p, q)` and contraction coordinate `k` the left operand is read at `(k, p)`. -/
theorem cols_lhs (p : Fin A) (q : Fin B) (k : Fin K) :
    (cols K A B).lhsIdx (ix2 p q) ((contrEquiv1 (cols K A B) K cols_rank cols_size).symm k) = ix2 k p := by
  funext a
  apply Fin.ext
  match a with
  | ⟨0, _⟩ => rfl
  | ⟨1, _⟩ => rfl

/-- At result index `(p, q)` and contraction coordinate `k` the right operand is read at `(k, q)`. -/
theorem cols_rhs (p : Fin A) (q : Fin B) (k : Fin K) :
    (cols K A B).rhsIdx (ix2 p q) ((contrEquiv1 (cols K A B) K cols_rank cols_size).symm k) = ix2 k q := by
  funext a
  apply Fin.ext
  match a with
  | ⟨0, _⟩ => rfl
  | ⟨1, _⟩ => rfl

/-- The sum over the contraction index is the sum over `k : Fin K` of `f (k, p) · g (k, q)`. -/
theorem cols_sum (f : (⟨2, ![K, A]⟩ : Shape).Idx → EReal) (g : (⟨2, ![K, B]⟩ : Shape).Idx → EReal) (p : Fin A) (q : Fin B) :
    ∑ k : (cols K A B).contr.Idx, f ((cols K A B).lhsIdx (ix2 p q) k) * g ((cols K A B).rhsIdx (ix2 p q) k)
      = ∑ k : Fin K, f (ix2 k p) * g (ix2 k q) := by
  rw [← Equiv.sum_comp (contrEquiv1 (cols K A B) K cols_rank cols_size).symm]
  refine Finset.sum_congr rfl fun k _ => ?_
  rw [cols_lhs, cols_rhs]

/-- A block product into the zero accumulator, at `(p, q)`: `∑ k, lhs (k, p) · rhs (k, q)`. -/
theorem matmul_zero_apply (d : DotDims ⟨2, ![K, A]⟩ ⟨2, ![K, B]⟩ ⟨2, ![A, B]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (lhs : FVec Ideal ⟨2, ![K, A]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 k p) * rhs (ix2 k q) := by
  rw [eq_cols d hlc hrc hln hrn hlb hrb, Ideal.matmul_constant_zero_apply]
  exact cols_sum lhs rhs p q

/-- The same product added to an accumulator `acc`, at `(p, q)`: `acc (p, q) + ∑ k, lhs (k, p) · rhs (k, q)`. -/
theorem matmul_acc_apply (d : DotDims ⟨2, ![K, A]⟩ ⟨2, ![K, B]⟩ ⟨2, ![A, B]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (lhs : FVec Ideal ⟨2, ![K, A]⟩ .f32) (rhs : FVec Ideal ⟨2, ![K, B]⟩ .f32)
    (acc : FVec Ideal ⟨2, ![A, B]⟩ .f32) (p : Fin A) (q : Fin B) :
    FloatOps.matmul d prec lhs rhs acc (ix2 p q) = acc (ix2 p q) + ∑ k : Fin K, lhs (ix2 k p) * rhs (ix2 k q) := by
  rw [eq_cols d hlc hrc hln hrn hlb hrb, Ideal.matmul_apply, cols_sum lhs rhs p q]

/-- The host's product at `(p, q)`, whatever its schedule key: the same sum. -/
theorem dotGeneral_apply (d : DotDims ⟨2, ![K, A]⟩ ⟨2, ![K, B]⟩ ⟨2, ![A, B]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (sched : HostSchedule) (lhs : FVec Ideal ⟨2, ![K, A]⟩ .f32) (rhs : FVec Ideal ⟨2, ![K, B]⟩ .f32)
    (p : Fin A) (q : Fin B) :
    FloatOps.dotGeneral d prec sched lhs rhs (ix2 p q) = ∑ k : Fin K, lhs (ix2 k p) * rhs (ix2 k q) := by
  rw [eq_cols d hlc hrc hln hrn hlb hrb, Ideal.dotGeneral_apply]
  exact cols_sum lhs rhs p q

end Cert.LibDotCols

end
-- ==== Proof.LibDotColsFormats.lean ====
/-
  A matrix product that contracts the ROW axis of both operands, read at an index, for operands of any float formats.

  For a `K × A` left operand and a `K × B` right operand whose dimension numbers contract the first axis of each (no
  batch axes), the product into a zero accumulator at `(p, q)` is `∑ k, lhs (k, p) · rhs (k, q)`. At the ideal values
  every float format is the extended reals, so the statement holds whatever the two operands' formats are (a product of
  half-precision operands accumulated in single precision, for one). The record with these dimension numbers and the
  sum over its contraction index are those of the single-precision statement this file builds on.
-/
import proofs.«137213_j28003186770529_1_alg».proof.Proof.LibDotCols
import Idealize.ShloMosaic.PureOps.Ideal
import Idealize.ShloMosaic.PureOps.Ideal.Laws
import Idealize.ShloMosaic.Lib.ValueIdx

noncomputable section

namespace Cert.LibDotColsFormats

open Idealize.ShloMosaic Idealize.ShloMosaic.ValueIdx
open scoped BigOperators

variable {K A B : Nat}

/-- A product into the zero accumulator contracting the first axis of both operands, at `(p, q)`:
    `∑ k, lhs (k, p) · rhs (k, q)`, for operands of any float formats. -/
theorem matmul_zero_apply {φ₁ φ₂ : FTy} (d : DotDims ⟨2, ![K, A]⟩ ⟨2, ![K, B]⟩ ⟨2, ![A, B]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (lhs : FVec Ideal ⟨2, ![K, A]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 k p) * rhs (ix2 k q) := by
  rw [Cert.LibDotCols.eq_cols d hlc hrc hln hrn hlb hrb, Ideal.matmul_constant_zero_apply]
  exact Cert.LibDotCols.cols_sum lhs rhs p q

/-- The same product added to an accumulator `acc`, at `(p, q)`: `acc (p, q) + ∑ k, lhs (k, p) · rhs (k, q)`. -/
theorem matmul_acc_apply {φ₁ φ₂ : FTy} (d : DotDims ⟨2, ![K, A]⟩ ⟨2, ![K, B]⟩ ⟨2, ![A, B]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (lhs : FVec Ideal ⟨2, ![K, A]⟩ φ₁) (rhs : FVec Ideal ⟨2, ![K, B]⟩ φ₂)
    (acc : FVec Ideal ⟨2, ![A, B]⟩ .f32) (p : Fin A) (q : Fin B) :
    FloatOps.matmul d prec lhs rhs acc (ix2 p q) = acc (ix2 p q) + ∑ k : Fin K, lhs (ix2 k p) * rhs (ix2 k q) := by
  rw [Cert.LibDotCols.eq_cols d hlc hrc hln hrn hlb hrb, Ideal.matmul_apply, Cert.LibDotCols.cols_sum lhs rhs p q]

end Cert.LibDotColsFormats

end
-- ==== Proof.LibColumn.lean ====
/-
  A column of row values read at an index.

  A row reduction that keeps its reduced axis produces an `[a]` array given a trailing unit axis, `[a, 1]`, and then
  spread along that axis to `[a, b]`: entry `(i, 0)` of the cast is the array's entry `i`, and entry `(i, j)` of the
  spread column is the column's entry `(i, 0)`, whatever the sizes and the element type.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.KernelBody.lean ====
/-
  What the kernel body computes for one grid point, read at an index over the extended reals.

  The body flattens each `[1, 64, 64, 64]` activation block to a `64 × 4096` matrix (head channel by pixel, the pixel
  number being row · 64 + column), maps queries and keys through the linear layer and the ReLU, contracts mapped keys
  against values over the pixels, contracts that `64 × 64` matrix against the mapped queries over its first axis, and
  un-flattens the `64 × 4096` result to `[64, 64, 64]`. Every change of float format on the way is the identity on
  extended reals, and every matrix product into a zero accumulator is a plain finite sum of products. So the body's
  value at `(e, y, x)` is the head's attention output `Cert.LinAttn.attn` at head channel `e` and pixel `y · 64 + x`,
  of the three blocks read as head slices.
-/
import proofs.«137213_j28003186770529_1_alg».proof.Proof.Gen.KernelIdeal.Skeleton
import proofs.«137213_j28003186770529_1_alg».proof.Proof.Spec
import proofs.«137213_j28003186770529_1_alg».proof.Proof.LibDotFormats
import proofs.«137213_j28003186770529_1_alg».proof.Proof.LibDotCols
import proofs.«137213_j28003186770529_1_alg».proof.Proof.LibDotColsFormats
import proofs.«137213_j28003186770529_1_alg».proof.Proof.LibColumn
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.LinAttn
open scoped BigOperators

/-! ## The body as a composition of five steps -/

/-- A block flattened: head channel by pixel number. -/
def flat (P : Vec Ideal S1x64x64x64 .f32) : FVec Ideal S64x4096 .f32 :=
  shapeCast S64x4096 (shapeCast S64x64x64 P shapeCasts_S1x64x64x64_S64x64x64) shapeCasts_S64x64x64_S64x4096

/-- The feature map on a flattened block: the weight times the block, plus the bias down the rows, then the ReLU. -/
def featMat (W : Vec Ideal S64x64 .f32) (β : Vec Ideal S64 .f32) (X : FVec Ideal S64x4096 .f32) : FVec Ideal S64x4096 .f32 :=
  maximumf
    (addf
      (matmul dot_S64x64_S64x4096_S64x4096_1_0_0_1_n_n none (truncf .bf16 W bitsLt_bf16_f32) (truncf .bf16 X bitsLt_bf16_f32)
        (constant S64x4096 .f32 0x00000000#32))
      (broadcastTo S64x4096 (shapeCast S64x1 β shapeCasts_S64_S64x1) broadcasts_S64x1_S64x4096))
    (broadcast S64x4096 (Scalar.ofBits .f32 0x00000000#32))

/-- Mapped keys against values: both contracted over the pixels. -/
def kvMat (KF V : FVec Ideal S64x4096 .f32) : FVec Ideal S64x64 .f32 :=
  matmul dot_S64x4096_S64x4096_S64x64_1_1_0_0_n_n none (truncf .bf16 KF bitsLt_bf16_f32) (truncf .bf16 V bitsLt_bf16_f32)
    (constant S64x64 .f32 0x00000000#32)

/-- That matrix against the mapped queries: both contracted over their first axis. -/
def outMat (KV : FVec Ideal S64x64 .f32) (QF : FVec Ideal S64x4096 .f32) : FVec Ideal S64x4096 .f32 :=
  matmul dot_S64x64_S64x4096_S64x4096_0_0_1_1_n_n none (truncf .bf16 KV bitsLt_bf16_f32) (truncf .bf16 QF bitsLt_bf16_f32)
    (constant S64x4096 .f32 0x00000000#32)

/-- The body's value is the composition. -/
theorem pay_eq (P0 P1 P2 : Vec Ideal S1x64x64x64 .f32) (P3 : Vec Ideal S64x64 .f32) (P4 : Vec Ideal S64 .f32) :
    k0_pay2 (F := Ideal) P0 P1 P2 P3 P4
      = shapeCast S64x64x64 (outMat (kvMat (featMat P3 P4 (flat P1)) (flat P2)) (featMat P3 P4 (flat P0)))
          shapeCasts_S64x4096_S64x64x64 := rfl

/-! ## Each step at an index -/

theorem flat_apply (P : Vec Ideal S1x64x64x64 .f32) (d : Fin 64) (n : Fin 4096) :
    flat P (ix2 d n) = P (ix4 (0 : Fin 1) d (rowOf n) (colOf n)) := by
  have hn := n.isLt
  unfold flat
  refine (shapeCast_apply _ _ (ix2 d n) (ix3 d (rowOf n) (colOf n)) ?_).trans ?_
  · rw [Shape.rowMajor_val_three, Shape.rowMajor_val_two]
    show (d.val * 64 + n.val / 64) * 64 + n.val % 64 = d.val * 4096 + n.val
    omega
  · refine shapeCast_apply _ _ _ (ix4 (0 : Fin 1) d (rowOf n) (colOf n)) ?_
    rw [Shape.rowMajor_val_four, Shape.rowMajor_val_three]
    show ((0 * 64 + d.val) * 64 + n.val / 64) * 64 + n.val % 64 = (d.val * 64 + n.val / 64) * 64 + n.val % 64
    omega

theorem featMat_apply (W : Vec Ideal S64x64 .f32) (β : Vec Ideal S64 .f32) (X : FVec Ideal S64x4096 .f32) (e : Fin 64) (n : Fin 4096) :
    featMat W β X (ix2 e n)
      = max ((∑ d : Fin 64, W (ix2 e d) * X (ix2 d n)) + β (ix1 e)) (Ideal.ofBits .f32 0x00000000#32) := by
  have hprod : (matmul dot_S64x64_S64x4096_S64x4096_1_0_0_1_n_n none (truncf .bf16 W bitsLt_bf16_f32) (truncf .bf16 X bitsLt_bf16_f32)
        (constant S64x4096 .f32 0x00000000#32)) (ix2 e n) = ∑ d : Fin 64, W (ix2 e d) * X (ix2 d n) :=
    Cert.LibDotFormats.matmul_cols_zero_apply (A := 64) (K := 64) (B := 4096) dot_S64x64_S64x4096_S64x4096_1_0_0_1_n_n
      rfl rfl rfl rfl rfl rfl none _ _ e n
  unfold featMat
  rw [maximumf_apply, addf_apply, hprod, Cert.LibColumn.broadcastTo_a1_ab_apply, Cert.LibColumn.shapeCast_a_a1_apply]
  rfl

theorem kvMat_apply (KF V : FVec Ideal S64x4096 .f32) (c e : Fin 64) :
    kvMat KF V (ix2 c e) = ∑ n : Fin 4096, KF (ix2 c n) * V (ix2 e n) := by
  exact Cert.LibDotFormats.matmul_rows_zero_apply (A := 64) (K := 4096) (B := 64) dot_S64x4096_S64x4096_S64x64_1_1_0_0_n_n
    rfl rfl rfl rfl rfl rfl none _ _ c e

theorem outMat_apply (KV : FVec Ideal S64x64 .f32) (QF : FVec Ideal S64x4096 .f32) (e : Fin 64) (n : Fin 4096) :
    outMat KV QF (ix2 e n) = ∑ c : Fin 64, KV (ix2 c e) * QF (ix2 c n) := by
  exact Cert.LibDotColsFormats.matmul_zero_apply (K := 64) (A := 64) (B := 4096) dot_S64x64_S64x4096_S64x4096_0_0_1_1_n_n
    rfl rfl rfl rfl rfl rfl none _ _ e n

theorem unflat_apply (M : FVec Ideal S64x4096 .f32) (e y x : Fin 64) :
    shapeCast S64x64x64 M shapeCasts_S64x4096_S64x64x64 (ix3 e y x) = M (ix2 e (pix y x)) := by
  refine shapeCast_apply _ _ _ (ix2 e (pix y x)) ?_
  rw [Shape.rowMajor_val_two, Shape.rowMajor_val_three]
  show e.val * 4096 + (y.val * 64 + x.val) = (e.val * 64 + y.val) * 64 + x.val
  omega

/-! ## The body at an index -/

/-- A block as a head slice: head channel by pixel number. -/
def blkHead (P : Vec Ideal S1x64x64x64 .f32) : Head := fun d n => P (ix4 (0 : Fin 1) d (rowOf n) (colOf n))

theorem featMat_flat (W : Vec Ideal S64x64 .f32) (β : Vec Ideal S64 .f32) (P : Vec Ideal S1x64x64x64 .f32) (e : Fin 64) (n : Fin 4096) :
    featMat W β (flat P) (ix2 e n) = feat W β (blkHead P) e n := by
  rw [featMat_apply]
  unfold feat blkHead
  simp only [flat_apply]

/-- The body's value at `(e, y, x)` is the head's attention output at head channel `e` and pixel `y · 64 + x`. -/
theorem pay_apply (P0 P1 P2 : Vec Ideal S1x64x64x64 .f32) (P3 : Vec Ideal S64x64 .f32) (P4 : Vec Ideal S64 .f32) (e y x : Fin 64) :
    k0_pay2 (F := Ideal) P0 P1 P2 P3 P4 (ix3 e y x) = attn P3 P4 (blkHead P0) (blkHead P1) (blkHead P2) e (pix y x) := by
  rw [pay_eq, unflat_apply, outMat_apply]
  unfold attn keyVal
  refine Finset.sum_congr rfl fun c _ => ?_
  rw [kvMat_apply, featMat_flat]
  congr 1
  refine Finset.sum_congr rfl fun n _ => ?_
  rw [featMat_flat, flat_apply]
  rfl

end Cert.KernelIdeal.Body

end
-- ==== Proof.KernelValue.lean ====
/-
  From the grid points' blocks to the whole result array.

  The grid has 8 × 8 points; point `t` serves batch entry `t / 8` and head `t % 8`. Its three activation blocks are
  the `[1, 64, 64, 64]` pieces at block index `(t / 8, t % 8, 0, 0)` of the argument arrays, that is the head slices
  `Cert.LinAttn.slice` of the arguments at that batch entry and head; the weight and the bias are staged whole. The
  body leaves in the output block, at `(0, e, y, x)`, the head's attention output at head channel `e` and pixel
  `y · 64 + x` (Proof/KernelBody.lean), and the block is written back at block index `(t / 8, t % 8, 0, 0)` of the
  result array, where the specification `Cert.LinAttn.G` holds exactly that value. The 64 blocks tile the result
  array (index `(b, ch, y, x)` lies in the block of point `b · 8 + ch / 64`), so the array ends holding `G` of the
  arguments.
-/
import proofs.«137213_j28003186770529_1_alg».proof.Proof.Gen.KernelIdeal.Value
import proofs.«137213_j28003186770529_1_alg».proof.Proof.KernelBody
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx Cert.LinAttn Cert.KernelIdeal.Body

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## What the body leaves in the output block, over arbitrary input blocks -/

theorem out_apply (x0 x1 x2 : Vec Ideal S1x64x64x64 .f32) (x3 : Vec Ideal S64x64 .f32) (x4 : Vec Ideal S64 .f32)
    (u : Fin 1) (e y x : Fin 64) :
    out0_5 x0 x1 x2 x3 x4 (ix4 u e y x) = attn x3 x4 (blkHead x0) (blkHead x1) (blkHead x2) e (pix y x) := by
  unfold out0_5
  rw [Value.canon5_eq]
  show k0_pay2 (View.ld x0 r0_0) (View.ld x1 r0_0) (View.ld x2 r0_0) (View.ld x3 r0_1) (View.ld x4 r0_2) (Value.ix5_0 (ix4 u e y x)) = _
  rw [View.ld_unit_zero (S := S1x64x64x64) hz4, View.ld_unit_zero (S := S1x64x64x64) hz4, View.ld_unit_zero (S := S1x64x64x64) hz4,
    View.ld_unit_zero (S := S64x64) hz2, View.ld_unit_zero (S := S64) hz1]
  have hi : Value.ix5_0 (ix4 u e y x) = ix3 e y x := funext fun a => Fin.ext (by
    match a with
    | ⟨0, _⟩ => rfl
    | ⟨1, _⟩ => rfl
    | ⟨2, _⟩ => rfl)
  rw [hi]
  exact pay_apply x0 x1 x2 x3 x4 e y x

/-! ## The grid -/

/-- The batch entry point `t` serves. -/
def bAt (t : Fin cfg0.N) : Fin 8 := ⟨t.val / 8, by have h : t.val < 64 := lt_of_lt_of_eq t.isLt N_0; omega⟩
/-- The head point `t` serves. -/
def hAt (t : Fin cfg0.N) : Fin 8 := ⟨t.val % 8, Nat.mod_lt _ (by decide)⟩

/-- The printed index maps, decided over the 64 points: the activation windows and the output window sit at block
    index `(t / 8, t % 8, 0, 0)`, the weight and the bias at block index zero. -/
theorem idx_facts : ∀ t : Fin cfg0.N,
    (win0_0.index t (0 : Fin 4) = t.val / 8 ∧ win0_0.index t (1 : Fin 4) = t.val % 8 ∧ win0_0.index t (2 : Fin 4) = 0 ∧ win0_0.index t (3 : Fin 4) = 0)
    ∧ (win0_1.index t (0 : Fin 4) = t.val / 8 ∧ win0_1.index t (1 : Fin 4) = t.val % 8 ∧ win0_1.index t (2 : Fin 4) = 0 ∧ win0_1.index t (3 : Fin 4) = 0)
    ∧ (win0_2.index t (0 : Fin 4) = t.val / 8 ∧ win0_2.index t (1 : Fin 4) = t.val % 8 ∧ win0_2.index t (2 : Fin 4) = 0 ∧ win0_2.index t (3 : Fin 4) = 0)
    ∧ (win0_3.index t (0 : Fin 2) = 0 ∧ win0_3.index t (1 : Fin 2) = 0)
    ∧ win0_4.index t (0 : Fin 1) = 0
    ∧ (win0_5.index t (0 : Fin 4) = t.val / 8 ∧ win0_5.index t (1 : Fin 4) = t.val % 8 ∧ win0_5.index t (2 : Fin 4) = 0 ∧ win0_5.index t (3 : Fin 4) = 0) :=
  (by decide +kernel : ∀ t : Fin grid0.N, _)

/-! ## The input blocks -/

theorem queries_blk (c : Dev nD) (t : Fin cfg0.N) : blkHead (iblk m c 0 t) = slice (V m c main_arg0) (bAt t) (hAt t) := by
  obtain ⟨⟨e0, e1, e2, e3⟩, -⟩ := idx_facts t
  funext d n
  unfold blkHead slice iblk
  rw [View.read_apply]
  show V m c main_arg0 _ = V m c main_arg0 _
  congr 1
  funext a
  apply Fin.ext
  match a with
  | ⟨0, _⟩ => show win0_0.index t (0 : Fin 4) * 1 + 1 * 0 = t.val / 8; rw [e0]; omega
  | ⟨1, _⟩ => show win0_0.index t (1 : Fin 4) * 64 + 1 * d.val = t.val % 8 * 64 + d.val; rw [e1]; omega
  | ⟨2, _⟩ => show win0_0.index t (2 : Fin 4) * 64 + 1 * (n.val / 64) = n.val / 64; rw [e2]; omega
  | ⟨3, _⟩ => show win0_0.index t (3 : Fin 4) * 64 + 1 * (n.val % 64) = n.val % 64; rw [e3]; omega

theorem keys_blk (c : Dev nD) (t : Fin cfg0.N) : blkHead (iblk m c 1 t) = slice (V m c main_arg1) (bAt t) (hAt t) := by
  obtain ⟨-, ⟨e0, e1, e2, e3⟩, -⟩ := idx_facts t
  funext d n
  unfold blkHead slice iblk
  rw [View.read_apply]
  show V m c main_arg1 _ = V m c main_arg1 _
  congr 1
  funext a
  apply Fin.ext
  match a with
  | ⟨0, _⟩ => show win0_1.index t (0 : Fin 4) * 1 + 1 * 0 = t.val / 8; rw [e0]; omega
  | ⟨1, _⟩ => show win0_1.index t (1 : Fin 4) * 64 + 1 * d.val = t.val % 8 * 64 + d.val; rw [e1]; omega
  | ⟨2, _⟩ => show win0_1.index t (2 : Fin 4) * 64 + 1 * (n.val / 64) = n.val / 64; rw [e2]; omega
  | ⟨3, _⟩ => show win0_1.index t (3 : Fin 4) * 64 + 1 * (n.val % 64) = n.val % 64; rw [e3]; omega

theorem values_blk (c : Dev nD) (t : Fin cfg0.N) : blkHead (iblk m c 2 t) = slice (V m c main_arg2) (bAt t) (hAt t) := by
  obtain ⟨-, -, ⟨e0, e1, e2, e3⟩, -⟩ := idx_facts t
  funext d n
  unfold blkHead slice iblk
  rw [View.read_apply]
  show V m c main_arg2 _ = V m c main_arg2 _
  congr 1
  funext a
  apply Fin.ext
  match a with
  | ⟨0, _⟩ => show win0_2.index t (0 : Fin 4) * 1 + 1 * 0 = t.val / 8; rw [e0]; omega
  | ⟨1, _⟩ => show win0_2.index t (1 : Fin 4) * 64 + 1 * d.val = t.val % 8 * 64 + d.val; rw [e1]; omega
  | ⟨2, _⟩ => show win0_2.index t (2 : Fin 4) * 64 + 1 * (n.val / 64) = n.val / 64; rw [e2]; omega
  | ⟨3, _⟩ => show win0_2.index t (3 : Fin 4) * 64 + 1 * (n.val % 64) = n.val % 64; rw [e3]; omega

theorem weight_blk (c : Dev nD) (t : Fin cfg0.N) : (iblk m c 3 t : Vec Ideal S64x64 .f32) = V m c main_arg3 := by
  obtain ⟨-, -, -, ⟨e0, e1⟩, -⟩ := idx_facts t
  funext y
  unfold iblk
  rw [View.read_apply]
  show V m c main_arg3 _ = V m c main_arg3 y
  congr 1
  funext a
  apply Fin.ext
  match a with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega

theorem bias_blk (c : Dev nD) (t : Fin cfg0.N) : (iblk m c 4 t : Vec Ideal S64 .f32) = V m c main_arg4 := by
  obtain ⟨-, -, -, -, e0, -⟩ := idx_facts t
  funext y
  unfold iblk
  rw [View.read_apply]
  show V m c main_arg4 _ = V m c main_arg4 y
  congr 1
  funext a
  apply Fin.ext
  match a with
  | ⟨0, _⟩ => show win0_4.index t (0 : Fin 1) * 64 + 1 * (y 0).val = (y 0).val; rw [e0]; omega

/-! ## What a point writes back -/

/-- The specification at `(b, h · 64 + e, y, x)`. -/
theorem G_at (q k v : Act) (W : Wt) (β : Bias) (b h : Fin 8) (e y x : Fin 64) :
    G q k v W β (ix4 b (chan h e) y x) = attn W β (slice q b h) (slice k b h) (slice v b h) e (pix y x) := by
  show attn W β (slice q b (headOf (chan h e))) (slice k b (headOf (chan h e))) (slice v b (headOf (chan h e))) (chOf (chan h e)) (pix y x) = _
  rw [headOf_chan, chOf_chan]

/-- The result array this core ends with. -/
abbrev result (c : Dev nD) : Buf (Elt Ideal) ((c : Thread nD τ).loc main_v0) :=
  G (m ((c : Thread nD τ).loc main_arg0)) (m ((c : Thread nD τ).loc main_arg1)) (m ((c : Thread nD τ).loc main_arg2))
    (m ((c : Thread nD τ).loc main_arg3)) (m ((c : Thread nD τ).loc main_arg4))

/-- Point `t`'s output block at `(u, e, y, x)` is the specification at `(t / 8, (t % 8) · 64 + e, y, x)`. -/
theorem point_value (c : Dev nD) (t : Fin cfg0.N) (u : Fin 1) (e y x : Fin 64) :
    out0_5 (iblk m c 0 t) (iblk m c 1 t) (iblk m c 2 t) (iblk m c 3 t) (iblk m c 4 t) (ix4 u e y x)
      = result m c (ix4 (bAt t) (chan (hAt t) e) y x) := by
  refine (out_apply (iblk m c 0 t) (iblk m c 1 t) (iblk m c 2 t) (iblk m c 3 t) (iblk m c 4 t) u e y x).trans ?_
  rw [queries_blk m c t, keys_blk m c t, values_blk m c t, weight_blk m c t, bias_blk m c t]
  exact (G_at _ _ _ _ _ (bAt t) (hAt t) e y x).symm

/-- What point `t` writes back is block `t` of the specification. -/
theorem flushed_eq (c : Dev nD) (t : Fin cfg0.N) :
    (dats m 0 c).flushed 5 t = ((cfg0.win 5).blk t).view.read (Elt Ideal) (result m c) := by
  obtain ⟨-, -, -, -, -, ⟨e0, e1, e2, e3⟩⟩ := idx_facts t
  rw [Value.flushed5]
  funext j
  have hj0 : (j 0).val < 1 := (j 0).isLt
  have hj1 : (j 1).val < 64 := (j 1).isLt
  have hj2 : (j 2).val < 64 := (j 2).isLt
  have hj3 : (j 3).val < 64 := (j 3).isLt
  have hl : (cfg0.win 5).xinj (grid0.coords t) j = ix4 (⟨(j 0).val, hj0⟩ : Fin 1) (⟨(j 1).val, hj1⟩ : Fin 64) (⟨(j 2).val, hj2⟩ : Fin 64) (⟨(j 3).val, hj3⟩ : Fin 64) := by
    funext a
    apply Fin.ext
    match a with
    | ⟨0, _⟩ => rfl
    | ⟨1, _⟩ => rfl
    | ⟨2, _⟩ => rfl
    | ⟨3, _⟩ => rfl
  have hr : ((cfg0.win 5).blk t).view.emb j = ix4 (bAt t) (chan (hAt t) (⟨(j 1).val, hj1⟩ : Fin 64)) (⟨(j 2).val, hj2⟩ : Fin 64) (⟨(j 3).val, hj3⟩ : Fin 64) := by
    funext a
    apply Fin.ext
    match a with
    | ⟨0, _⟩ => show win0_5.index t (0 : Fin 4) * 1 + 1 * (j 0).val = t.val / 8; rw [e0]; omega
    | ⟨1, _⟩ => show win0_5.index t (1 : Fin 4) * 64 + 1 * (j 1).val = t.val % 8 * 64 + (j 1).val; rw [e1]; omega
    | ⟨2, _⟩ => show win0_5.index t (2 : Fin 4) * 64 + 1 * (j 2).val = (j 2).val; rw [e2]; omega
    | ⟨3, _⟩ => show win0_5.index t (3 : Fin 4) * 64 + 1 * (j 3).val = (j 3).val; rw [e3]; omega
  show out0_5 (iblk m c 0 t) (iblk m c 1 t) (iblk m c 2 t) (iblk m c 3 t) (iblk m c 4 t) ((cfg0.win 5).xinj (grid0.coords t) j)
    = result m c (((cfg0.win 5).blk t).view.emb j)
  rw [hl, hr]
  exact point_value m c t _ _ _ _

/-! ## The blocks tile the result array -/

theorem mem_blk (t : Fin cfg0.N) (i : S8x512x64x64.Idx) :
    i ∈ ((cfg0.win 5).blk t).view.set ↔ ∀ a : Fin 4, win0_5.index t a * S1x64x64x64.size a ≤ (i a).val ∧ (i a).val < win0_5.index t a * S1x64x64x64.size a + S1x64x64x64.size a := by
  show i ∈ ((View.whole main_v0).slice (win0_5.rect t)).set ↔ _
  rw [View.set_slice_whole, Rect.mem_set_unit]
  exact Iff.rfl

theorem cover (i : S8x512x64x64.Idx) : ∃ t : Fin cfg0.N, (cfg0.win 5).flush t = true ∧ i ∈ ((cfg0.win 5).blk t).view.set := by
  have h0 : (i 0).val < 8 := (i 0).isLt
  have h1 : (i 1).val < 512 := (i 1).isLt
  have h2 : (i 2).val < 64 := (i 2).isLt
  have h3 : (i 3).val < 64 := (i 3).isLt
  have ht : (i 0).val * 8 + (i 1).val / 64 < cfg0.N := by rw [show cfg0.N = 64 from N_0]; omega
  obtain ⟨-, -, -, -, -, ⟨e0, e1, e2, e3⟩⟩ := idx_facts ⟨(i 0).val * 8 + (i 1).val / 64, ht⟩
  refine ⟨⟨(i 0).val * 8 + (i 1).val / 64, ht⟩, flush0_5 _, ?_⟩
  rw [mem_blk]
  intro a
  match a with
  | ⟨0, _⟩ =>
    show win0_5.index ⟨(i 0).val * 8 + (i 1).val / 64, ht⟩ (0 : Fin 4) * 1 ≤ (i 0).val ∧ (i 0).val < win0_5.index ⟨(i 0).val * 8 + (i 1).val / 64, ht⟩ (0 : Fin 4) * 1 + 1
    rw [e0]; show ((i 0).val * 8 + (i 1).val / 64) / 8 * 1 ≤ (i 0).val ∧ (i 0).val < ((i 0).val * 8 + (i 1).val / 64) / 8 * 1 + 1; omega
  | ⟨1, _⟩ =>
    show win0_5.index ⟨(i 0).val * 8 + (i 1).val / 64, ht⟩ (1 : Fin 4) * 64 ≤ (i 1).val ∧ (i 1).val < win0_5.index ⟨(i 0).val * 8 + (i 1).val / 64, ht⟩ (1 : Fin 4) * 64 + 64
    rw [e1]; show ((i 0).val * 8 + (i 1).val / 64) % 8 * 64 ≤ (i 1).val ∧ (i 1).val < ((i 0).val * 8 + (i 1).val / 64) % 8 * 64 + 64; omega
  | ⟨2, _⟩ =>
    show win0_5.index ⟨(i 0).val * 8 + (i 1).val / 64, ht⟩ (2 : Fin 4) * 64 ≤ (i 2).val ∧ (i 2).val < win0_5.index ⟨(i 0).val * 8 + (i 1).val / 64, ht⟩ (2 : Fin 4) * 64 + 64
    rw [e2]; omega
  | ⟨3, _⟩ =>
    show win0_5.index ⟨(i 0).val * 8 + (i 1).val / 64, ht⟩ (3 : Fin 4) * 64 ≤ (i 3).val ∧ (i 3).val < win0_5.index ⟨(i 0).val * 8 + (i 1).val / 64, ht⟩ (3 : Fin 4) * 64 + 64
    rw [e3]; omega

/-- So the result array ends holding the specification of the arguments. -/
theorem final (c : Dev nD) : (dats m 0 c).arrAt 5 cfg0.N = result m c :=
  (dats m 0 c).arrAt_eq_of_cover 5 (result m c) (fun t _ => flushed_eq m c t) cover

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.KernelIdeal.Hand

end
-- ==== Proof.RefValue.lean ====
/-
  The reference, read at an index, is the specification.

  The reference splits the channel axis into heads (a reshape to `[8, 8, 64, 4096]`: batch, head, head channel, pixel
  number) and transposes to `[8, 8, 4096, 64]` (pixel by head channel). Read at `(b, h, n, d)` that is the head slice
  `Cert.LinAttn.slice` at `(d, n)`. The feature map, the keys-against-values product and the final product are then the
  specification's sums with the two factors of some products in the other order (extended reals multiply
  commutatively), and the closing transpose and reshape put head channel `e` and pixel `y · 64 + x` at
  `(b, h · 64 + e, y, x)`.
-/
import proofs.«137213_j28003186770529_1_alg».proof.Proof.Gen.ReferenceIdeal.Read
import proofs.«137213_j28003186770529_1_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.LinAttn
open scoped BigOperators

/-- An activation array of the reference, as the specification's. -/
abbrev RAct := (⟨S8x512x64x64, .f32⟩ : BufTy).Contents (Elt Ideal)
abbrev RWt := (⟨S64x64, .f32⟩ : BufTy).Contents (Elt Ideal)
abbrev RBias := (⟨S64, .f32⟩ : BufTy).Contents (Elt Ideal)

/-- Where the split-and-transposed array reads the activation: `(b, h, n, d)` reads `(b, h · 64 + d, n / 64, n % 64)`. -/
theorem split_idx (B H : Fin 8) (N : Fin 4096) (d : Fin 64) :
    idx_main_v0 (idx_main_v1 (ix4 B H N d)) = ix4 B (chan H d) (rowOf N) (colOf N) := by
  have hB := B.isLt; have hH := H.isLt; have hN := N.isLt; have hd := d.isLt
  funext a
  apply Fin.ext
  match a with
  | ⟨0, _⟩ => show (((B.val * 8 + H.val) * 64 + d.val) * 4096 + N.val) / 2097152 = B.val; omega
  | ⟨1, _⟩ => show (((B.val * 8 + H.val) * 64 + d.val) * 4096 + N.val) / 4096 % 512 = H.val * 64 + d.val; omega
  | ⟨2, _⟩ => show (((B.val * 8 + H.val) * 64 + d.val) * 4096 + N.val) / 64 % 64 = N.val / 64; omega
  | ⟨3, _⟩ => show (((B.val * 8 + H.val) * 64 + d.val) * 4096 + N.val) % 64 = N.val % 64; omega

theorem queries_at (a : RAct) (B H : Fin 8) (N : Fin 4096) (d : Fin 64) :
    val_main_v1 (F := Ideal) a (ix4 B H N d) = slice a B H d N := by
  rw [val_main_v1_apply, val_main_v0_apply]
  exact congrArg a (split_idx B H N d)

theorem keys_at (a : RAct) (B H : Fin 8) (N : Fin 4096) (d : Fin 64) :
    val_main_v3 (F := Ideal) a (ix4 B H N d) = slice a B H d N := by
  rw [val_main_v3_apply, val_main_v2_apply]
  exact congrArg a (split_idx B H N d)

theorem values_at (a : RAct) (B H : Fin 8) (N : Fin 4096) (d : Fin 64) :
    val_main_v5 (F := Ideal) a (ix4 B H N d) = slice a B H d N := by
  rw [val_main_v5_apply, val_main_v4_apply]
  exact congrArg a (split_idx B H N d)

/-! ## The feature map -/

theorem bias_idx (B H : Fin 8) (N : Fin 4096) (e : Fin 64) : idx_main_v7 (idx_main_v8 (ix4 B H N e)) = ix1 e := by
  funext a
  match a with
  | ⟨0, _⟩ => rfl

theorem lin_lidx (B H : Fin 8) (N : Fin 4096) (e d : Fin 64) : lidx_main_v6 (ix4 B H N e) d = ix4 B H N d := by
  funext a
  match a with
  | ⟨0, _⟩ => rfl
  | ⟨1, _⟩ => rfl
  | ⟨2, _⟩ => rfl
  | ⟨3, _⟩ => rfl

theorem lin_ridx (B H : Fin 8) (N : Fin 4096) (e d : Fin 64) : ridx_main_v6 (ix4 B H N e) d = ix2 e d := by
  funext a
  match a with
  | ⟨0, _⟩ => rfl
  | ⟨1, _⟩ => rfl

/-- The mapped queries at `(b, h, n, e)`. -/
theorem mappedQ_at (a : RAct) (W : RWt) (β : RBias) (B H : Fin 8) (N : Fin 4096) (e : Fin 64) :
    val_main_v10 (F := Ideal) a W β (ix4 B H N e) = feat W β (slice a B H) e N := by
  rw [val_main_v10_apply, val_main_v9_apply, val_main_v6_apply, val_main_v8_apply, val_main_v7_apply,
    val_main_call0_v0_apply, val_main_call0_cst_apply, bias_idx]
  unfold feat
  rw [Ideal.maximumf_def, Ideal.addf_def, Ideal.ofBits_def]
  congr 2
  refine Finset.sum_congr rfl fun d _ => ?_
  rw [lin_lidx, lin_ridx, queries_at, mul_comm]

theorem bias_idx' (B H : Fin 8) (N : Fin 4096) (e : Fin 64) : idx_main_v12 (idx_main_v13 (ix4 B H N e)) = ix1 e := by
  funext a
  match a with
  | ⟨0, _⟩ => rfl

theorem lin_lidx' (B H : Fin 8) (N : Fin 4096) (e d : Fin 64) : lidx_main_v11 (ix4 B H N e) d = ix4 B H N d := by
  funext a
  match a with
  | ⟨0, _⟩ => rfl
  | ⟨1, _⟩ => rfl
  | ⟨2, _⟩ => rfl
  | ⟨3, _⟩ => rfl

theorem lin_ridx' (B H : Fin 8) (N : Fin 4096) (e d : Fin 64) : ridx_main_v11 (ix4 B H N e) d = ix2 e d := by
  funext a
  match a with
  | ⟨0, _⟩ => rfl
  | ⟨1, _⟩ => rfl

/-- The mapped keys at `(b, h, n, e)`. -/
theorem mappedK_at (a : RAct) (W : RWt) (β : RBias) (B H : Fin 8) (N : Fin 4096) (e : Fin 64) :
    val_main_v15 (F := Ideal) a W β (ix4 B H N e) = feat W β (slice a B H) e N := by
  rw [val_main_v15_apply, val_main_v14_apply, val_main_v11_apply, val_main_v13_apply, val_main_v12_apply,
    val_main_call1_v0_apply, val_main_call1_cst_apply, bias_idx']
  unfold feat
  rw [Ideal.maximumf_def, Ideal.addf_def, Ideal.ofBits_def]
  congr 2
  refine Finset.sum_congr rfl fun d _ => ?_
  rw [lin_lidx', lin_ridx', keys_at, mul_comm]

/-! ## Keys against values -/

theorem kv_lidx (B H : Fin 8) (c e : Fin 64) (n : Fin 4096) : lidx_main_v16 (ix4 B H c e) n = ix4 B H n c := by
  funext a
  match a with
  | ⟨0, _⟩ => rfl
  | ⟨1, _⟩ => rfl
  | ⟨2, _⟩ => rfl
  | ⟨3, _⟩ => rfl

theorem kv_ridx (B H : Fin 8) (c e : Fin 64) (n : Fin 4096) : ridx_main_v16 (ix4 B H c e) n = ix4 B H n e := by
  funext a
  match a with
  | ⟨0, _⟩ => rfl
  | ⟨1, _⟩ => rfl
  | ⟨2, _⟩ => rfl
  | ⟨3, _⟩ => rfl

theorem keyVal_at (k v : RAct) (W : RWt) (β : RBias) (B H : Fin 8) (c e : Fin 64) :
    val_main_v16 (F := Ideal) k v W β (ix4 B H c e) = keyVal (feat W β (slice k B H)) (slice v B H) c e := by
  rw [val_main_v16_apply]
  unfold keyVal
  refine Finset.sum_congr rfl fun n _ => ?_
  rw [kv_lidx, kv_ridx, mappedK_at, values_at]

/-! ## Queries against that matrix -/

theorem out_lidx (B H : Fin 8) (N : Fin 4096) (e c : Fin 64) : lidx_main_v17 (ix4 B H N e) c = ix4 B H N c := by
  funext a
  match a with
  | ⟨0, _⟩ => rfl
  | ⟨1, _⟩ => rfl
  | ⟨2, _⟩ => rfl
  | ⟨3, _⟩ => rfl

theorem out_ridx (B H : Fin 8) (N : Fin 4096) (e c : Fin 64) : ridx_main_v17 (ix4 B H N e) c = ix4 B H c e := by
  funext a
  match a with
  | ⟨0, _⟩ => rfl
  | ⟨1, _⟩ => rfl
  | ⟨2, _⟩ => rfl
  | ⟨3, _⟩ => rfl

theorem attn_at (q k v : RAct) (W : RWt) (β : RBias) (B H : Fin 8) (N : Fin 4096) (e : Fin 64) :
    val_main_v17 (F := Ideal) q k v W β (ix4 B H N e) = attn W β (slice q B H) (slice k B H) (slice v B H) e N := by
  rw [val_main_v17_apply]
  unfold attn
  refine Finset.sum_congr rfl fun c _ => ?_
  rw [out_lidx, out_ridx, mappedQ_at, keyVal_at, mul_comm]

/-! ## The result array -/

/-- Where the result array reads the per-head output: `(b, c, y, x)` reads `(b, c / 64, y · 64 + x, c % 64)`. -/
theorem merge_idx (b : Fin 8) (ch : Fin 512) (y x : Fin 64) :
    idx_main_v18 (idx_main_v19 (ix4 b ch y x)) = ix4 b (headOf ch) (pix y x) (chOf ch) := by
  have h0 := b.isLt; have h1 := ch.isLt; have h2 := y.isLt; have h3 := x.isLt
  funext a
  apply Fin.ext
  match a with
  | ⟨0, _⟩ => show (((b.val * 512 + ch.val) * 64 + y.val) * 64 + x.val) / 2097152 = b.val; omega
  | ⟨1, _⟩ => show (((b.val * 512 + ch.val) * 64 + y.val) * 64 + x.val) / 262144 % 8 = ch.val / 64; omega
  | ⟨2, _⟩ => show (((b.val * 512 + ch.val) * 64 + y.val) * 64 + x.val) % 4096 = y.val * 64 + x.val; omega
  | ⟨3, _⟩ => show (((b.val * 512 + ch.val) * 64 + y.val) * 64 + x.val) / 4096 % 64 = ch.val % 64; omega

/-- The reference's result is the specification of its arguments. -/
theorem result_eq (q k v : RAct) (W : RWt) (β : RBias) : val_main_v19 (F := Ideal) q k v W β = G q k v W β := by
  refine funext fun (i : S8x512x64x64.Idx) => ?_
  obtain ⟨b, ch, y, x, rfl⟩ : ∃ (b : Fin 8) (ch : Fin 512) (y x : Fin 64), i = ix4 b ch y x := ⟨i 0, i 1, i 2, i 3, eq_ix4 i⟩
  rw [val_main_v19_apply, val_main_v18_apply, merge_idx, attn_at]
  rfl

end Cert.ReferenceIdeal.RefValue

end
-- ==== Proof.lean ====
/-
  Linear attention with a learned feature map (a linear layer and a ReLU on queries and keys), one Pallas kernel
  with a grid point per batch entry and head, against the einsum reference.

  Over the extended reals both programs compute, for batch entry `b`, head `h`, head channel `e` and pixel `n`,

      out[e, n] = ∑ c, (∑ n', φ(K)[c, n'] · V[e, n']) · φ(Q)[c, n],     φ(X)[c, n] = max (∑ d, W[c, d] · X[d, n] + β[c]) 0,

  where `X[d, n]` is the activation at `(b, h · 64 + d, n / 64, n % 64)`, and put it at `(b, h · 64 + e, n / 64, n % 64)`
  (Proof/Spec.lean). The kernel reaches it by three matrix products per grid point on half-precision copies of its
  operands — copies that are the operands themselves on extended reals — (Proof/KernelBody.lean, Proof/KernelValue.lean);
  the reference by a reshape and a transpose per activation, three contractions and a transpose and reshape back
  (Proof/RefValue.lean). The two arrangements differ only in the order of the two factors of some products, so no
  finiteness of the inputs is used. The frames of the two kernels are the generated ones, the reference's frame is its
  generated run, and the idealization rewrote nothing.
-/
import proofs.«137213_j28003186770529_1_alg».proof.Defs
import proofs.«137213_j28003186770529_1_alg».proof.Proof.Gen.Kernel
import proofs.«137213_j28003186770529_1_alg».proof.Proof.Gen.Kernel.Skeleton
import proofs.«137213_j28003186770529_1_alg».proof.Proof.Gen.Kernel.Launch
import proofs.«137213_j28003186770529_1_alg».proof.Proof.Gen.Kernel.Points
import proofs.«137213_j28003186770529_1_alg».proof.Proof.Gen.Kernel.Frame
import proofs.«137213_j28003186770529_1_alg».proof.Proof.Gen.KernelIdeal
import proofs.«137213_j28003186770529_1_alg».proof.Proof.Gen.KernelIdeal.Skeleton
import proofs.«137213_j28003186770529_1_alg».proof.Proof.Gen.KernelIdeal.Launch
import proofs.«137213_j28003186770529_1_alg».proof.Proof.Gen.KernelIdeal.Points
import proofs.«137213_j28003186770529_1_alg».proof.Proof.Gen.KernelIdeal.Frame
import proofs.«137213_j28003186770529_1_alg».proof.Proof.Gen.ReferenceIdeal
import proofs.«137213_j28003186770529_1_alg».proof.Proof.Gen.Pre_finite_inputs
import proofs.«137213_j28003186770529_1_alg».proof.Proof.Gen.KernelIdeal.Value
import proofs.«137213_j28003186770529_1_alg».proof.Proof.Gen.ReferenceIdeal.Run
import proofs.«137213_j28003186770529_1_alg».proof.Proof.Gen.ReferenceIdeal.Read
import proofs.«137213_j28003186770529_1_alg».proof.Proof.KernelValue
import proofs.«137213_j28003186770529_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the result array at the specification `Cert.LinAttn.G` of arguments that agree. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v19_eq _ _ _ _ _).trans (Cert.ReferenceIdeal.RefValue.result_eq _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
